-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x8192 : Shape := ⟨3, ![8, 1024, 8192]⟩
abbrev S8x4096x1024 : Shape := ⟨3, ![8, 4096, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x8192 : S_.BroadcastsInDim S8x1024x8192 (![] : Fin 0 → Fin S8x1024x8192.rank)
  reducesTo_S8x1024x8192_S_d0_1_2 : S8x1024x8192.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn {F : FTy → Type} [FloatOps F] (main_arg0 : FVec F S8x2048x1024 .f32) (main_arg1 : FVec F S8x1024x8192 .f32) (main_arg2 : FVec F S8x4096x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x8192 .f32 := Host.absf main_arg1
  let main_cst_0 : FVec F S_ .f32 := constant S_ .f32 0x7F800000#32
  let main_v5 : FVec F S8x1024x8192 .f32 := broadcastInDim S8x1024x8192 ![] bcast_S_S8x1024x8192 main_cst_0
  let main_v6 : IVec S8x1024x8192 1 := cmpf .olt main_v4 main_v5
  let main_c_1 : IVec S_ 1 := constantI S_ 1 1#1
  let main_v7 : IVec S_ 1 := (fun x v => Host.reduce IntOp.andi x v reducesTo_S8x1024x8192_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x2048x1024 : Shape := ⟨3, ![8, 2048, 1024]⟩
abbrev S8x1024x8192 : Shape := ⟨3, ![8, 1024, 8192]⟩
abbrev S8x4096x1024 : Shape := ⟨3, ![8, 4096, 1024]⟩
abbrev S8x1024x4096 : Shape := ⟨3, ![8, 1024, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x1024x8192, .f32⟩
  | .hbm, ⟨2, _⟩ => ⟨S8x4096x1024, .f32⟩
  | .hbm, ⟨3, _⟩ => ⟨S8x2048x1024, .bf16⟩
  | .hbm, ⟨4, _⟩ => ⟨S8x1024x4096, .f32⟩
  | .hbm, ⟨5, _⟩ => ⟨S8x1024x4096, .bf16⟩
  | .hbm, ⟨6, _⟩ => ⟨S8x1024x4096, .f32⟩
  | .hbm, ⟨7, _⟩ => ⟨S8x1024x4096, .bf16⟩
  | .hbm, ⟨8, _⟩ => ⟨S8x4096x1024, .bf16⟩
  | .hbm, ⟨9, _⟩ => ⟨S8x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  slices_S8x1024x8192_S8x1024x4096_0_0_0 : S8x1024x8192.Slices ![0, 0, 0] S8x1024x4096
  slices_S8x1024x8192_S8x1024x4096_0_0_4096 : S8x1024x8192.Slices ![0, 0, 4096] S8x1024x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x4096.size a
  hwx0_2 : ∀ i : grid0.Coords, EltTy.bits .bf16 = 32 ∨ (Rect.block (s := S8x1024x4096) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x2048x1024.size a
  hwx0_4 : ∀ i : grid0.Coords, EltTy.bits .f32 = 32 ∨ (Rect.block (s := S8x2048x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x8192 : Shape := ⟨3, ![8, 1024, 8192]⟩
abbrev S8x4096x1024 : Shape := ⟨3, ![8, 4096, 1024]⟩
abbrev S8x2048x8192 : Shape := ⟨3, ![8, 2048, 8192]⟩
abbrev S8x2048x4096 : Shape := ⟨3, ![8, 2048, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x8192, .f32⟩
  | .hbm, ⟨2, _⟩ => ⟨S8x4096x1024, .f32⟩
  | .hbm, ⟨3, _⟩ => ⟨S8x2048x8192, .f32⟩
  | .hbm, ⟨4, _⟩ => ⟨S8x2048x4096, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S_, .f32⟩
  | .hbm, ⟨9, _⟩ => ⟨S8x2048x4096, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  dot_S8x2048x1024_S8x1024x8192_S8x2048x8192_2_1_1_2_0_0_wf : DotDims.WF S8x2048x1024 S8x1024x8192 S8x2048x8192 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x8192_S8x2048x8192_2_1_1_2_0_0 : DotDims S8x2048x1024 S8x1024x8192 S8x2048x8192 where
  lhsContracting := [2]
  rhsContracting := [1]
  lhsNonContracting := [1]
  rhsNonContracting := [2]
  lhsBatch := [0]
  rhsBatch := [0]
  wf := dot_S8x2048x1024_S8x1024x8192_S8x2048x8192_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.Spec.lean ====
/-
  The mathematics of the gated feed-forward layer, as one function of the three argument arrays.

  For expert `e`, token row `r` and hidden column `j < 4096` the first projection has a gate entry
  `g = ∑_d x[e,r,d] · w1[e,d,j]` and a value entry `v = ∑_d x[e,r,d] · w1[e,d,4096+j]`; the hidden
  activation is `(g · σ(g)) · v` with `σ` the logistic function, and the result is
  `out[e,r,o] = ∑_j hidden[e,r,j] · w2[e,j,o]`, all on the extended reals.

  The only law the two programs need between them is a regrouping of that last sum: a sum over 4096
  hidden columns is the sum over four consecutive chunks of 1024 columns (`sum_chunks`), which holds in
  any commutative additive monoid, so no finiteness of the inputs is used.
-/
import Idealize.ShloMosaic.PureOps.Ideal
import Idealize.ShloMosaic.Lib.ValueIdx
import Mathlib.Algebra.BigOperators.Fin
import Mathlib.Logic.Equiv.Fin.Basic

noncomputable section

namespace Cert.Swiglu

open Idealize.ShloMosaic Idealize.ShloMosaic.ValueIdx

/-- The activations `x`: 8 experts, 2048 token rows, 1024 input features. -/
abbrev SX : Shape := ⟨3, ![8, 2048, 1024]⟩
/-- The first weight: per expert 1024 input features by 8192 columns, gate half then value half. -/
abbrev SW1 : Shape := ⟨3, ![8, 1024, 8192]⟩
/-- The second weight: per expert 4096 hidden columns by 1024 output features. -/
abbrev SW2 : Shape := ⟨3, ![8, 4096, 1024]⟩

/-- Column `j` of the gate half of the first weight. -/
def gateCol (j : Fin 4096) : Fin 8192 := ⟨j.val, by have := j.isLt; omega⟩
/-- Column `j` of the value half of the first weight. -/
def valCol (j : Fin 4096) : Fin 8192 := ⟨4096 + j.val, by have := j.isLt; omega⟩

/-- One entry of the first projection `x @ w1`. -/
def proj (X : SX.Idx → EReal) (W1 : SW1.Idx → EReal) (e : Fin 8) (r : Fin 2048) (col : Fin 8192) : EReal :=
  ∑ d : Fin 1024, X (ix3 e r d) * W1 (ix3 e d col)

/-- The gated activation: `(g · σ(g)) · v`. -/
def gated (g v : EReal) : EReal := (g * Ideal.logistic g) * v

/-- One entry of the hidden layer. -/
def hidden (X : SX.Idx → EReal) (W1 : SW1.Idx → EReal) (e : Fin 8) (r : Fin 2048) (j : Fin 4096) : EReal :=
  gated (proj X W1 e r (gateCol j)) (proj X W1 e r (valCol j))

/-- The layer's result, entry by entry. -/
def out (X : SX.Idx → EReal) (W1 : SW1.Idx → EReal) (W2 : SW2.Idx → EReal) : SX.Idx → EReal := fun i =>
  ∑ j : Fin 4096, hidden X W1 (i 0) (i 1) j * W2 (ix3 (i 0) j (i 2))

/-- Hidden column `k` of chunk `s`. -/
def chunkCol (s : Fin 4) (k : Fin 1024) : Fin 4096 := ⟨s.val * 1024 + k.val, by have := s.isLt; have := k.isLt; omega⟩

/-- A sum over the 4096 hidden columns is the sum over the four chunks of 1024 consecutive columns. -/
theorem sum_chunks {M : Type*} [AddCommMonoid M] (f : Fin 4096 → M) :
    ∑ j : Fin 4096, f j = ∑ s : Fin 4, ∑ k : Fin 1024, f (chunkCol s k) := by
  rw [← Fintype.sum_prod_type']
  refine (Equiv.sum_comp (finProdFinEquiv (m := 4) (n := 1024)) f).symm.trans ?_
  refine Finset.sum_congr rfl fun p _ => congrArg f (Fin.ext ?_)
  show p.2.val + 1024 * p.1.val = p.1.val * 1024 + p.2.val
  omega

end Cert.Swiglu

end
-- ==== Proof.Payload.lean ====
/-
  What one grid point adds to the accumulator, entry by entry.

  At a point the body holds a 512-row block `x` of the activations, a 1024-column chunk `wg` of the
  gate weights, the matching chunk `wv` of the value weights and the matching 1024 rows `w2` of the
  second weight. It forms the two products `x @ wg` and `x @ wv` (each entry a sum over the 1024 input
  features), gates them, and adds `gated @ w2` to what the accumulator held:
      new[p, o] = old[p, o] + ∑_k gated (x@wg)[p,k] (x@wv)[p,k] · w2[k, o].
  Read on the extended reals, where a change of float format is the identity and the matrix unit's
  product into a zero accumulator is the plain sum.
-/
import proofs.«125212_j17111149707607_1_alg».proof.Proof.Gen.KernelIdeal.Skeleton
import proofs.«125212_j17111149707607_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.TcCoe Idealize.ShloMosaic.ValueIdx

/-- The dimension record of the body's three matrix products: rows by columns, one contracted axis. -/
abbrev mm := dot_S512x1024_S1024x1024_S512x1024_1_0_0_1_n_n

theorem mm_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem mm_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem mm_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The matrix unit's product into a zero accumulator, at entry `(p, q)`: the sum over the contracted axis. -/
theorem matmul_zero_apply (l : FVec Ideal S512x1024 .bf16) (r : FVec Ideal S1024x1024 .bf16) (p : Fin 512) (q : Fin 1024) :
    matmul (F := Ideal) dot_S512x1024_S1024x1024_S512x1024_1_0_0_1_n_n none l r (constant S512x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- Entry `(p, k)` of a token block times a weight chunk: the sum over the 1024 input features. -/
def blockProj (x : FVec Ideal S1x512x1024 .bf16) (w : FVec Ideal S1x1024x1024 .bf16) (p : Fin 512) (k : Fin 1024) : EReal :=
  ∑ d : Fin 1024, x (ix3 (0 : Fin 1) p d) * w (ix3 (0 : Fin 1) d k)

/-- What the point adds at entry `(p, o)`: the gated hidden chunk times the chunk's rows of the second weight. -/
def addend (x : FVec Ideal S1x512x1024 .bf16) (wg wv w2 : FVec Ideal S1x1024x1024 .bf16) (p : Fin 512) (o : Fin 1024) : EReal :=
  ∑ k : Fin 1024, Cert.Swiglu.gated (blockProj x wg p k) (blockProj x wv p k) * w2 (ix3 (0 : Fin 1) k o)

/-- The logistic function acts entry by entry. -/
theorem logistic_apply (a : FVec Ideal S512x1024 .f32) (i : S512x1024.Idx) : logistic a i = Ideal.logistic (a i) := rfl

/-- The accumulating store's value at entry `(p, o)`: what the accumulator held plus the point's addend. -/
theorem pay2_apply (x : Vec Ideal S1x512x1024 .bf16) (wg wv : Vec Ideal S1x1024x1024 .bf16) (acc : Vec Ideal S512x1024 .f32)
    (w2 : Vec Ideal S1x1024x1024 .bf16) (p : Fin 512) (o : Fin 1024) :
    k0_pay2 (F := Ideal) x wg wv acc w2 (ix2 p o) = acc (ix2 p o) + addend x wg wv w2 p o := by
  unfold k0_pay2
  simp only [shapeCast_self]
  rw [addf_apply, matmul_zero_apply]
  refine congrArg (acc (ix2 p o) + ·) (Finset.sum_congr rfl fun k _ => ?_)
  rw [truncf_apply, mulf_apply, mulf_apply, logistic_apply]
  simp only [matmul_zero_apply, shapeCast_1ab_ab_apply]
  rfl

/-- The reset stores zero at every entry. -/
theorem pay1_apply (j : S512x1024.Idx) : k0_pay1 (F := Ideal) j = 0 := by
  unfold k0_pay1
  simp only [shapeCast_self]
  show Ideal.ofBits .f32 0x00000000#32 = 0
  exact Ideal.ofBits_zero_f32

/-- The final store hands the accumulator to the output block, entry for entry. -/
theorem pay3_apply (acc : Vec Ideal S512x1024 .f32) (u : Fin 1) (p : Fin 512) (o : Fin 1024) :
    k0_pay3 (F := Ideal) acc (ix3 u p o) = acc (ix2 p o) := by
  unfold k0_pay3
  exact shapeCast_ab_1ab_apply _ _ u p o

end Cert.KernelIdeal.Point

end
-- ==== Proof.Pieces.lean ====
/-
  What the body leaves behind at a grid point, in each of its three control cases.

  Along the innermost grid axis the body resets the accumulator at the first step, adds a chunk's
  contribution at every step, and copies the accumulator to the output block at the last step.
  Every store covers its whole buffer and every load reads a whole buffer, so what a case leaves is
  the stored value itself:
    * first step:      accumulator = step (zero block)
    * middle steps:    accumulator = step (what the step before left)
    * last step:       accumulator = step (what the step before left), output block = that accumulator
  where `step acc` is the body's accumulating store over the point's four input blocks.
-/
import proofs.«125212_j17111149707607_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step leaves the accumulator at the step's value over what it held. -/
theorem sout_B (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : ¬cond0_1 i) (x0 : Vec F S1x512x1024 .bf16) (x1 : Vec F S1x1024x1024 .bf16) (x2 : Vec F S1x1024x1024 .bf16) (x3 : Vec F S1x1024x1024 .bf16) (xs0 : Vec F S512x1024 .f32) :
    sout0_B_0 c i arg3 harg3 arg4 harg4 arg5 harg5 arg6 harg6 arg7 harg7 arg8 harg8 hc0 hc1 x0 x1 x2 x3 xs0 = k0_pay2 x0 x1 x2 xs0 x3 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread, View.ld_unit_zero (S := S1x512x1024) hz3, View.ld_unit_zero (S := S1x1024x1024) hz3, View.ld_unit_zero (S := S512x1024) hz2]

/-- The first step stores the zero block, reads it back, and leaves the step's value over it. -/
theorem sout_A (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : cond0_0 i) (hc1 : ¬cond0_1 i) (x0 : Vec F S1x512x1024 .bf16) (x1 : Vec F S1x1024x1024 .bf16) (x2 : Vec F S1x1024x1024 .bf16) (x3 : Vec F S1x1024x1024 .bf16) :
    sout0_A_0 c i arg3 harg3 arg4 harg4 arg5 harg5 arg6 harg6 arg7 harg7 arg8 harg8 hc0 hc1 x0 x1 x2 x3 = k0_pay2 x0 x1 x2 k0_pay1 x3 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2, View.readCov_unit_zero (S := S512x1024) _ hz2]
  simp only [View.readAt_eq_ld, harg3.read_unread, harg4.read_unread, harg5.read_unread, harg6.read_unread, harg8.read_unread, View.ld_unit_zero (S := S1x512x1024) hz3, View.ld_unit_zero (S := S1x1024x1024) hz3, View.ld_unit_zero (S := S512x1024) hz2]

/-- The last step leaves the accumulator at the step's value over what it held, -/
theorem sout_C (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i) (x0 : Vec F S1x512x1024 .bf16) (x1 : Vec F S1x1024x1024 .bf16) (x2 : Vec F S1x1024x1024 .bf16) (x3 : Vec F S1x1024x1024 .bf16) (xs0 : Vec F S512x1024 .f32) :
    sout0_C_0 c i arg3 harg3 arg4 harg4 arg5 harg5 arg6 harg6 arg7 harg7 arg8 harg8 hc0 hc1 x0 x1 x2 x3 xs0 = k0_pay2 x0 x1 x2 xs0 x3 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread, View.ld_unit_zero (S := S1x512x1024) hz3, View.ld_unit_zero (S := S1x1024x1024) hz3, View.ld_unit_zero (S := S512x1024) hz2]

/-- and the output block at that accumulator, re-laid with a leading unit axis. -/
theorem out_C (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i) (x0 : Vec F S1x512x1024 .bf16) (x1 : Vec F S1x1024x1024 .bf16) (x2 : Vec F S1x1024x1024 .bf16) (x3 : Vec F S1x1024x1024 .bf16) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 xs0 x3) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread, View.ld_unit_zero (S := S1x512x1024) hz3, View.ld_unit_zero (S := S1x1024x1024) hz3, View.ld_unit_zero (S := S512x1024) hz2, View.readCov_unit_zero (S := S512x1024) _ hz2]

end Cert.KernelIdeal.Pieces

end
-- ==== Proof.Blocks.lean ====
/-
  The four input blocks of a grid point, read off the argument arrays.

  Point `t` of the 8 × 4 × 4 grid is expert `t / 16`, row tile `t / 4 % 4`, hidden chunk `t % 4`.
  Its blocks are: rows `512·tile … 512·tile + 511` of the expert's activations; columns
  `1024·chunk …` of the gate half and of the value half of the expert's first weight; rows
  `1024·chunk …` of the expert's second weight. The host casts and slices the arguments before the
  kernel runs; on the extended reals a cast is the identity and a slice is a shift of the column.
-/
import proofs.«125212_j17111149707607_1_alg».proof.Proof.Gen.KernelIdeal.Frame
import proofs.«125212_j17111149707607_1_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The three arguments as the device holds them at launch. -/
abbrev argX (c : Dev nD) : Cert.Swiglu.SX.Idx → EReal := m ((c : Thread nD τ).loc main_arg0)
abbrev argW1 (c : Dev nD) : Cert.Swiglu.SW1.Idx → EReal := m ((c : Thread nD τ).loc main_arg1)
abbrev argW2 (c : Dev nD) : Cert.Swiglu.SW2.Idx → EReal := m ((c : Thread nD τ).loc main_arg2)

/-- A point's four input blocks, at their literal types. -/
abbrev xblk (c : Dev nD) (t : Fin cfg0.N) : FVec Ideal S1x512x1024 .bf16 := iblk m c 0 t
abbrev gblk (c : Dev nD) (t : Fin cfg0.N) : FVec Ideal S1x1024x1024 .bf16 := iblk m c 1 t
abbrev vblk (c : Dev nD) (t : Fin cfg0.N) : FVec Ideal S1x1024x1024 .bf16 := iblk m c 2 t
abbrev w2blk (c : Dev nD) (t : Fin cfg0.N) : FVec Ideal S1x1024x1024 .bf16 := iblk m c 3 t

/-- What the host hands the kernel: the activations cast (the identity on the extended reals), -/
theorem V_v0_apply (c : Dev nD) (j : S8x2048x1024.Idx) :
    (V m c main_v0 : S8x2048x1024.Idx → EReal) j = argX m c j := by
  have e : @Eq (S8x2048x1024.Idx → EReal) (V m c main_v0)
      (truncf (F := Ideal) .bf16 (m ((c : Thread nD τ).loc main_arg0)) bitsLt_bf16_f32) := by
    dsimp only [Gen.V, Gen.hostOps0]; after_results <;> rfl
  exact congrFun e j

/-- the gate half of the first weight, columns `0 … 4095`, -/
theorem V_v2_apply (c : Dev nD) (j : S8x1024x4096.Idx) (i : Cert.Swiglu.SW1.Idx)
    (h0 : (i 0).val = (j 0).val) (h1 : (i 1).val = (j 1).val) (h2 : (i 2).val = (j 2).val) :
    (V m c main_v2 : S8x1024x4096.Idx → EReal) j = argW1 m c i := by
  have e : @Eq (S8x1024x4096.Idx → EReal) (V m c main_v2)
      (truncf (F := Ideal) .bf16 (extractStridedSlice S8x1024x4096 ![0, 0, 0] (m ((c : Thread nD τ).loc main_arg1)) slices_S8x1024x8192_S8x1024x4096_0_0_0) bitsLt_bf16_f32) := by
    dsimp only [Gen.V, Gen.hostOps0]; after_results <;> rfl
  refine (congrFun e j).trans ?_
  exact extractStridedSlice_apply ![0, 0, 0] _ slices_S8x1024x8192_S8x1024x4096_0_0_0 j i (fun a => match a with
    | ⟨0, _⟩ => by show (i 0).val = 0 + (j 0).val; omega
    | ⟨1, _⟩ => by show (i 1).val = 0 + (j 1).val; omega
    | ⟨2, _⟩ => by show (i 2).val = 0 + (j 2).val; omega)

/-- the value half, columns `4096 … 8191`, -/
theorem V_v4_apply (c : Dev nD) (j : S8x1024x4096.Idx) (i : Cert.Swiglu.SW1.Idx)
    (h0 : (i 0).val = (j 0).val) (h1 : (i 1).val = (j 1).val) (h2 : (i 2).val = 4096 + (j 2).val) :
    (V m c main_v4 : S8x1024x4096.Idx → EReal) j = argW1 m c i := by
  have e : @Eq (S8x1024x4096.Idx → EReal) (V m c main_v4)
      (truncf (F := Ideal) .bf16 (extractStridedSlice S8x1024x4096 ![0, 0, 4096] (m ((c : Thread nD τ).loc main_arg1)) slices_S8x1024x8192_S8x1024x4096_0_0_4096) bitsLt_bf16_f32) := by
    dsimp only [Gen.V, Gen.hostOps0]; after_results <;> rfl
  refine (congrFun e j).trans ?_
  exact extractStridedSlice_apply ![0, 0, 4096] _ slices_S8x1024x8192_S8x1024x4096_0_0_4096 j i (fun a => match a with
    | ⟨0, _⟩ => by show (i 0).val = 0 + (j 0).val; omega
    | ⟨1, _⟩ => by show (i 1).val = 0 + (j 1).val; omega
    | ⟨2, _⟩ => by show (i 2).val = 4096 + (j 2).val; omega)

/-- and the second weight cast. -/
theorem V_v5_apply (c : Dev nD) (j : S8x4096x1024.Idx) :
    (V m c main_v5 : S8x4096x1024.Idx → EReal) j = argW2 m c j := by
  have e : @Eq (S8x4096x1024.Idx → EReal) (V m c main_v5)
      (truncf (F := Ideal) .bf16 (m ((c : Thread nD τ).loc main_arg2)) bitsLt_bf16_f32) := by
    dsimp only [Gen.V, Gen.hostOps0]; after_results <;> rfl
  exact congrFun e j

/-- The printed index maps in closed form, decided once over the grid: (expert, row tile, 0), -/
theorem idx0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)
/-- (expert, 0, chunk) for the gate weights -/
theorem idx1 : ∀ t : Fin cfg0.N, win0_1.index t 0 = t.val / 16 ∧ win0_1.index t 1 = 0 ∧ win0_1.index t 2 = t.val % 4 :=
  (by decide +kernel : ∀ t : Fin grid0.N, win0_1.index t 0 = t.val / 16 ∧ win0_1.index t 1 = 0 ∧ win0_1.index t 2 = t.val % 4)
/-- and the value weights, -/
theorem idx2 : ∀ t : Fin cfg0.N, win0_2.index t 0 = t.val / 16 ∧ win0_2.index t 1 = 0 ∧ win0_2.index t 2 = t.val % 4 :=
  (by decide +kernel : ∀ t : Fin grid0.N, win0_2.index t 0 = t.val / 16 ∧ win0_2.index t 1 = 0 ∧ win0_2.index t 2 = t.val % 4)
/-- (expert, chunk, 0) for the second weight, -/
theorem idx3 : ∀ t : Fin cfg0.N, win0_3.index t 0 = t.val / 16 ∧ win0_3.index t 1 = t.val % 4 ∧ win0_3.index t 2 = 0 :=
  (by decide +kernel : ∀ t : Fin grid0.N, win0_3.index t 0 = t.val / 16 ∧ win0_3.index t 1 = t.val % 4 ∧ win0_3.index t 2 = 0)
/-- (expert, row tile, 0) for the output. -/
theorem idx4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

/-- The activation block: rows `512·tile + ·` of expert `t / 16`. -/
theorem xblk_apply (c : Dev nD) (t : Fin cfg0.N) (y : S1x512x1024.Idx) (i : Cert.Swiglu.SX.Idx)
    (h0 : (i 0).val = t.val / 16) (h1 : (i 1).val = t.val / 4 % 4 * 512 + (y 1).val) (h2 : (i 2).val = (y 2).val) :
    xblk m c t y = argX m c i := by
  have hi := idx0 t
  have hy0 : (y 0).val = 0 := by have : (y 0).val < 1 := (y 0).isLt; omega
  show iblk m c 0 t y = _
  unfold iblk
  rw [View.read_apply]
  show (V m c main_v0 : S8x2048x1024.Idx → EReal) _ = _
  refine (V_v0_apply m c _).trans (congrArg (argX m c) (funext fun a => Fin.ext ?_))
  match a with
  | ⟨0, _⟩ => show win0_0.index t 0 * 1 + 1 * (y 0).val = (i 0).val; rw [hi.1, h0, hy0]; omega
  | ⟨1, _⟩ => show win0_0.index t 1 * 512 + 1 * (y 1).val = (i 1).val; rw [hi.2.1, h1]; omega
  | ⟨2, _⟩ => show win0_0.index t 2 * 1024 + 1 * (y 2).val = (i 2).val; rw [hi.2.2, h2]; omega

/-- The gate-weight block: columns `1024·chunk + ·` of the gate half. -/
theorem gblk_apply (c : Dev nD) (t : Fin cfg0.N) (y : S1x1024x1024.Idx) (i : Cert.Swiglu.SW1.Idx)
    (h0 : (i 0).val = t.val / 16) (h1 : (i 1).val = (y 1).val) (h2 : (i 2).val = t.val % 4 * 1024 + (y 2).val) :
    gblk m c t y = argW1 m c i := by
  have hi := idx1 t
  have hy0 : (y 0).val = 0 := by have : (y 0).val < 1 := (y 0).isLt; omega
  show iblk m c 1 t y = _
  unfold iblk
  rw [View.read_apply]
  show (V m c main_v2 : S8x1024x4096.Idx → EReal) _ = _
  refine V_v2_apply m c _ i ?_ ?_ ?_
  · show (i 0).val = win0_1.index t 0 * 1 + 1 * (y 0).val; rw [hi.1, h0, hy0]; omega
  · show (i 1).val = win0_1.index t 1 * 1024 + 1 * (y 1).val; rw [hi.2.1, h1]; omega
  · show (i 2).val = win0_1.index t 2 * 1024 + 1 * (y 2).val; rw [hi.2.2, h2]; omega

/-- The value-weight block: columns `4096 + 1024·chunk + ·`. -/
theorem vblk_apply (c : Dev nD) (t : Fin cfg0.N) (y : S1x1024x1024.Idx) (i : Cert.Swiglu.SW1.Idx)
    (h0 : (i 0).val = t.val / 16) (h1 : (i 1).val = (y 1).val) (h2 : (i 2).val = 4096 + (t.val % 4 * 1024 + (y 2).val)) :
    vblk m c t y = argW1 m c i := by
  have hi := idx2 t
  have hy0 : (y 0).val = 0 := by have : (y 0).val < 1 := (y 0).isLt; omega
  show iblk m c 2 t y = _
  unfold iblk
  rw [View.read_apply]
  show (V m c main_v4 : S8x1024x4096.Idx → EReal) _ = _
  refine V_v4_apply m c _ i ?_ ?_ ?_
  · show (i 0).val = win0_2.index t 0 * 1 + 1 * (y 0).val; rw [hi.1, h0, hy0]; omega
  · show (i 1).val = win0_2.index t 1 * 1024 + 1 * (y 1).val; rw [hi.2.1, h1]; omega
  · show (i 2).val = 4096 + (win0_2.index t 2 * 1024 + 1 * (y 2).val); rw [hi.2.2, h2]; omega

/-- The second-weight block: rows `1024·chunk + ·` of expert `t / 16`. -/
theorem w2blk_apply (c : Dev nD) (t : Fin cfg0.N) (y : S1x1024x1024.Idx) (i : Cert.Swiglu.SW2.Idx)
    (h0 : (i 0).val = t.val / 16) (h1 : (i 1).val = t.val % 4 * 1024 + (y 1).val) (h2 : (i 2).val = (y 2).val) :
    w2blk m c t y = argW2 m c i := by
  have hi := idx3 t
  have hy0 : (y 0).val = 0 := by have : (y 0).val < 1 := (y 0).isLt; omega
  show iblk m c 3 t y = _
  unfold iblk
  rw [View.read_apply]
  show (V m c main_v5 : S8x4096x1024.Idx → EReal) _ = _
  refine (V_v5_apply m c _).trans (congrArg (argW2 m c) (funext fun a => Fin.ext ?_))
  match a with
  | ⟨0, _⟩ => show win0_3.index t 0 * 1 + 1 * (y 0).val = (i 0).val; rw [hi.1, h0, hy0]; omega
  | ⟨1, _⟩ => show win0_3.index t 1 * 1024 + 1 * (y 1).val = (i 1).val; rw [hi.2.1, h1]; omega
  | ⟨2, _⟩ => show win0_3.index t 2 * 1024 + 1 * (y 2).val = (i 2).val; rw [hi.2.2, h2]; omega

end Cert.KernelIdeal.Blocks

end
-- ==== Proof.KernelValue.lean ====
/-
  The idealized kernel computes the layer's function.

  Along the innermost grid axis (four consecutive points `4q, …, 4q + 3`: one expert, one tile of 512
  token rows, the four hidden chunks in order) the accumulator is reset and receives one addend per
  point, so after the fourth point its entry `(p, o)` is
      0 + ∑_{s < 4} ∑_{k < 1024} hidden[e, r, 1024·s + k] · w2[e, 1024·s + k, o],     r = 512·tile + p,
  which is the sum over all 4096 hidden columns regrouped by chunk: the layer's entry `(e, r, o)`.
  Only that fourth point writes its block back, and those blocks tile the result array.
-/
import proofs.«125212_j17111149707607_1_alg».proof.Proof.Gen.KernelIdeal.Value
import proofs.«125212_j17111149707607_1_alg».proof.Proof.Spec
import proofs.«125212_j17111149707607_1_alg».proof.Proof.Payload
import proofs.«125212_j17111149707607_1_alg».proof.Proof.Pieces
import proofs.«125212_j17111149707607_1_alg».proof.Proof.Blocks

noncomputable section

namespace Cert.KernelIdeal.RefValue

open Cert.KernelIdeal Cert.KernelIdeal.Gen Cert.KernelIdeal.Value Cert.KernelIdeal.Blocks Cert.KernelIdeal.Point
open Idealize.ShloMosaic Idealize.ShloMosaic.TcCoe Idealize.ShloMosaic.ValueIdx Idealize.SL.Sem
open Idealize.ShloMosaic.Pipeline (Dat)
open Cert.Swiglu (gated proj gateCol valCol chunkCol)

variable (m : (ℓ : Loc nD τ sig) → Buf (Elt Ideal) ℓ) (ρ : Dev nD → PrngReg)

/-- The layer's function of the arguments as launched: what the result array should hold. -/
abbrev result (c : Dev nD) : Cert.Swiglu.SX.Idx → EReal := Cert.Swiglu.out (argX m c) (argW1 m c) (argW2 m c)

/-! ## One point's step -/

/-- What a point makes of the accumulator: the accumulating store over the point's four blocks. -/
abbrev step (c : Dev nD) (t : Fin cfg0.N) (acc : Vec Ideal S512x1024 .f32) : Vec Ideal S512x1024 .f32 :=
  k0_pay2 (F := Ideal) (xblk m c t) (gblk m c t) (vblk m c t) acc (w2blk m c t)

/-- At the first point of a run the accumulator is the step over the zero block, whatever it held. -/
theorem scAt_first (c : Dev nD) (n : ℕ) (h : n < cfg0.N) (h0 : n % 4 = 0) (acc : Vec Ideal S512x1024 .f32) :
    scAt0_0 m c n h acc = step m c ⟨n, h⟩ (k0_pay1 (F := Ideal)) := by
  unfold scAt0_0
  rw [dif_pos h0, dif_neg (by omega)]
  exact Pieces.sout_A (F := Ideal) ..

/-- At every later point it is the step over what the point before left. -/
theorem scAt_later (c : Dev nD) (n : ℕ) (h : n < cfg0.N) (h0 : ¬n % 4 = 0) (acc : Vec Ideal S512x1024 .f32) :
    scAt0_0 m c n h acc = step m c ⟨n, h⟩ acc := by
  unfold scAt0_0
  rw [dif_neg h0]
  by_cases h1 : n % 4 = 3
  · rw [dif_pos h1]; exact Pieces.sout_C (F := Ideal) ..
  · rw [dif_neg h1]; exact Pieces.sout_B (F := Ideal) ..

/-- The step at an entry: what the accumulator held plus the point's addend. -/
theorem step_apply (c : Dev nD) (t : Fin cfg0.N) (acc : Vec Ideal S512x1024 .f32) (i : S512x1024.Idx) :
    step m c t acc i = acc i + addend (xblk m c t) (gblk m c t) (vblk m c t) (w2blk m c t) (i 0) (i 1) := by
  obtain ⟨p, q, rfl⟩ : ∃ (p : Fin 512) (q : Fin 1024), i = ix2 p q := ⟨i 0, i 1, eq_ix2 i⟩
  exact pay2_apply (xblk m c t) (gblk m c t) (vblk m c t) acc (w2blk m c t) p q

/-! ## The accumulator after the last point of a run -/

/-- Point `n`'s addend at an entry (zero past the grid, where it is never read). -/
def pointAddend (c : Dev nD) (n : ℕ) (i : S512x1024.Idx) : EReal :=
  if h : n < cfg0.N then addend (xblk m c ⟨n, h⟩) (gblk m c ⟨n, h⟩) (vblk m c ⟨n, h⟩) (w2blk m c ⟨n, h⟩) (i 0) (i 1) else 0

/-- After the last point of a run the accumulator holds zero plus the four points' addends. -/
theorem acc_last (c : Dev nD) (t : Fin cfg0.N) (h3 : t.val % 4 = 3) (i : S512x1024.Idx) :
    (outsAt0 m c t.val t.isLt).2 i = 0 + ∑ s ∈ Finset.range 4, pointAddend m c (4 * (t.val / 4) + s) i := by
  rw [soutsAt0_0_eq m c t]
  have key := Pipeline.accAt_add_apply (N := cfg0.N) (ι := S512x1024.Idx) (β := EReal)
    (fun n h => scAt0_0 m c n h (VS0_0.read (Elt Ideal) VS0_0.junk)) (scAt0_0 m c) (fun _ => (0 : EReal)) (pointAddend m c)
    (4 * (t.val / 4)) 3
    (fun h i => by
      show scAt0_0 m c (4 * (t.val / 4)) h _ i = 0 + pointAddend m c (4 * (t.val / 4)) i
      rw [scAt_first m c _ h (by omega), step_apply, pay1_apply]
      unfold pointAddend; rw [dif_pos h])
    (fun n h acc i hb hn => by
      show scAt0_0 m c n h acc i = acc i + pointAddend m c n i
      rw [scAt_later m c n h (by omega), step_apply]
      unfold pointAddend; rw [dif_pos h])
  refine (key (t.val % 4) (by omega) _ i).trans ?_
  rw [h3]

/-! ## A point's addend from the argument arrays -/

theorem blockProj_gate (c : Dev nD) (t : Fin cfg0.N) (e : Fin 8) (r : Fin 2048) (s : Fin 4) (p : Fin 512) (k : Fin 1024)
    (he : e.val = t.val / 16) (hr : r.val = t.val / 4 % 4 * 512 + p.val) (hs : s.val = t.val % 4) :
    blockProj (xblk m c t) (gblk m c t) p k = proj (argX m c) (argW1 m c) e r (gateCol (chunkCol s k)) := by
  unfold blockProj proj
  refine Finset.sum_congr rfl fun d _ => ?_
  rw [xblk_apply m c t (ix3 (0 : Fin 1) p d) (ix3 e r d) he hr rfl,
    gblk_apply m c t (ix3 (0 : Fin 1) d k) (ix3 e d (gateCol (chunkCol s k))) he rfl
      (by show s.val * 1024 + k.val = t.val % 4 * 1024 + k.val; rw [hs])]

theorem blockProj_val (c : Dev nD) (t : Fin cfg0.N) (e : Fin 8) (r : Fin 2048) (s : Fin 4) (p : Fin 512) (k : Fin 1024)
    (he : e.val = t.val / 16) (hr : r.val = t.val / 4 % 4 * 512 + p.val) (hs : s.val = t.val % 4) :
    blockProj (xblk m c t) (vblk m c t) p k = proj (argX m c) (argW1 m c) e r (valCol (chunkCol s k)) := by
  unfold blockProj proj
  refine Finset.sum_congr rfl fun d _ => ?_
  rw [xblk_apply m c t (ix3 (0 : Fin 1) p d) (ix3 e r d) he hr rfl,
    vblk_apply m c t (ix3 (0 : Fin 1) d k) (ix3 e d (valCol (chunkCol s k))) he rfl
      (by show 4096 + (s.val * 1024 + k.val) = 4096 + (t.val % 4 * 1024 + k.val); rw [hs])]

/-- The addend of the point of expert `e`, row tile and chunk `s`, at row `p` of the tile: chunk `s` of the
    layer's sum for row `r = 512·tile + p`. -/
theorem addend_global (c : Dev nD) (t : Fin cfg0.N) (e : Fin 8) (r : Fin 2048) (s : Fin 4) (p : Fin 512) (o : Fin 1024)
    (he : e.val = t.val / 16) (hr : r.val = t.val / 4 % 4 * 512 + p.val) (hs : s.val = t.val % 4) :
    addend (xblk m c t) (gblk m c t) (vblk m c t) (w2blk m c t) p o
      = ∑ k : Fin 1024, Cert.Swiglu.hidden (argX m c) (argW1 m c) e r (chunkCol s k) * argW2 m c (ix3 e (chunkCol s k) o) := by
  unfold addend Cert.Swiglu.hidden
  refine Finset.sum_congr rfl fun k _ => ?_
  rw [blockProj_gate m c t e r s p k he hr hs, blockProj_val m c t e r s p k he hr hs,
    w2blk_apply m c t (ix3 (0 : Fin 1) k o) (ix3 e (chunkCol s k) o) he
      (by show s.val * 1024 + k.val = t.val % 4 * 1024 + k.val; rw [hs]) rfl]

/-- After the last point of a run the accumulator's entry `(p, o)` is the layer's entry for the run's expert,
    row `512·tile + p` and output feature `o`. -/
theorem acc_last_eq (c : Dev nD) (t : Fin cfg0.N) (h3 : t.val % 4 = 3) (p : Fin 512) (o : Fin 1024) (i : Cert.Swiglu.SX.Idx)
    (he : (i 0).val = t.val / 16) (hr : (i 1).val = t.val / 4 % 4 * 512 + p.val) (ho : (i 2).val = o.val) :
    (outsAt0 m c t.val t.isLt).2 (ix2 p o) = result m c i := by
  rw [acc_last m c t h3 (ix2 p o), zero_add]
  unfold result Cert.Swiglu.out
  rw [Cert.Swiglu.sum_chunks, Finset.sum_range]
  refine Finset.sum_congr rfl fun s _ => ?_
  have hN : cfg0.N = 128 := N_0
  have hs := s.isLt
  have hlt : 4 * (t.val / 4) + s.val < cfg0.N := by have := t.isLt; omega
  unfold pointAddend
  rw [dif_pos hlt]
  have ho' : i 2 = o := Fin.ext ho
  rw [ho']
  exact addend_global m c ⟨_, hlt⟩ (i 0) (i 1) s p o
    (by show (i 0).val = (4 * (t.val / 4) + s.val) / 16; omega)
    (by show (i 1).val = (4 * (t.val / 4) + s.val) / 4 % 4 * 512 + p.val; omega)
    (by show s.val = (4 * (t.val / 4) + s.val) % 4; omega)

/-! ## From blocks to the array -/

/-- At the last point of a run the output block is the accumulator, re-laid with a leading unit axis. -/
theorem out_last (c : Dev nD) (t : Fin cfg0.N) (h0 : ¬t.val % 4 = 0) (h3 : t.val % 4 = 3) :
    (outsAt0 m c t.val t.isLt).1 = k0_pay3 (F := Ideal) (outsAt0 m c t.val t.isLt).2 := by
  rw [outsAt0_C m c t h0 h3]
  dsimp only
  rw [Pieces.out_C (F := Ideal), Pieces.sout_C (F := Ideal)]

/-- What a writing point writes back is its block of the layer's function. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have h0 : ¬t.val % 4 = 0 := by omega
  have hi := idx4 t
  rw [flushed4, out_last m c t h0 h3]
  have key : ∀ y : S1x512x1024.Idx,
      k0_pay3 (F := Ideal) (outsAt0 m c t.val t.isLt).2 y = result m c (((cfg0.win 4).blk t).view.emb y) := by
    intro y
    obtain ⟨u, p, o, rfl⟩ : ∃ (u : Fin 1) (p : Fin 512) (o : Fin 1024), y = ix3 u p o := ⟨y 0, y 1, y 2, eq_ix3 y⟩
    have hu : u.val = 0 := by have := u.isLt; omega
    rw [pay3_apply]
    refine acc_last_eq m c t h3 p o _ ?_ ?_ ?_
    · show win0_4.index t 0 * 1 + 1 * u.val = t.val / 16; rw [hi.1, hu]; omega
    · show win0_4.index t 1 * 512 + 1 * p.val = t.val / 4 % 4 * 512 + p.val; rw [hi.2.1]; omega
    · show win0_4.index t 2 * 1024 + 1 * o.val = o.val; rw [hi.2.2]; omega
  funext y
  rw [View.read_apply]
  exact key y

/-- Every entry of the result array lies in the block of the writing point of its expert and row tile. -/
theorem cover (i : S8x2048x1024.Idx) :
    ∃ t : Fin cfg0.N, (cfg0.win 4).flush t = true ∧ i ∈ ((cfg0.win 4).blk t).view.set := by
  have hN : cfg0.N = 128 := N_0
  have h0 : (i 0).val < 8 := (i 0).isLt
  have h1 : (i 1).val < 2048 := (i 1).isLt
  have h2 : (i 2).val < 1024 := (i 2).isLt
  let t : Fin cfg0.N := ⟨(i 0).val * 16 + (i 1).val / 512 * 4 + 3, by omega⟩
  have ht : t.val = (i 0).val * 16 + (i 1).val / 512 * 4 + 3 := rfl
  have hi := idx4 t
  refine ⟨t, (flush0_4 t).mpr (by omega), ?_⟩
  show i ∈ ((View.whole main_v6).slice (win0_4.rect t)).set
  rw [View.set_slice_whole, Rect.mem_set_unit]
  intro a
  match a with
  | ⟨0, _⟩ => show win0_4.index t 0 * 1 ≤ (i 0).val ∧ (i 0).val < win0_4.index t 0 * 1 + 1; rw [hi.1]; omega
  | ⟨1, _⟩ => show win0_4.index t 1 * 512 ≤ (i 1).val ∧ (i 1).val < win0_4.index t 1 * 512 + 512; rw [hi.2.1]; omega
  | ⟨2, _⟩ => show win0_4.index t 2 * 1024 ≤ (i 2).val ∧ (i 2).val < win0_4.index t 2 * 1024 + 1024; rw [hi.2.2]; omega

/-- The result array after the run is the layer's function of the arguments. -/
theorem final (c : Dev nD) : (dats m 0 c).arrAt 4 cfg0.N = result m c :=
  (dats m 0 c).arrAt_eq_of_cover 4 (result m c) (flushed_eq m c) cover

/-- The idealized kernel's run: the result array ends at the layer's function, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RefValue

end
-- ==== Proof.RefValue.lean ====
/-
  The reference computes the layer's function.

  Its program is: one batched product `x @ w1` into 8192 columns, the two halves sliced apart, the gate
  half sent through `g · (1 / (1 + exp (-g)))`, the product with the value half, and a second batched
  product with `w2`. Read at an index, entry by entry, this is `Cert.Swiglu.out`: the quotient
  `1 / (1 + exp (-g))` is the logistic function on the extended reals by definition, and the
  literal `1.0` is the real number one.
-/
import proofs.«125212_j17111149707607_1_alg».proof.Proof.Gen.ReferenceIdeal.Read
import proofs.«125212_j17111149707607_1_alg».proof.Proof.Spec

noncomputable section

namespace Cert.ReferenceIdeal.RefValue

open Cert.ReferenceIdeal Cert.ReferenceIdeal.Read Idealize.ShloMosaic Idealize.ShloMosaic.TcCoe Idealize.ShloMosaic.ValueIdx

/-- The float literal `1.0` is the real number one. -/
theorem ofBits_one : Ideal.ofBits .f32 0x3F800000#32 = 1 := by
  simp [Ideal.ofBits, Ideal.ieee, -EReal.coe_mul]; norm_num

/-- The reference's result, entry by entry, is the layer's function of the three arguments. -/
theorem result_eq (X : (⟨S8x2048x1024, .f32⟩ : BufTy).Contents (Elt Ideal)) (W1 : (⟨S8x1024x8192, .f32⟩ : BufTy).Contents (Elt Ideal))
    (W2 : (⟨S8x4096x1024, .f32⟩ : BufTy).Contents (Elt Ideal)) :
    val_main_v5 (F := Ideal) X W1 W2 = Cert.Swiglu.out X W1 W2 := by
  funext i
  rw [val_main_v5_apply]
  unfold Cert.Swiglu.out
  refine Finset.sum_congr rfl fun j _ => ?_
  have er : ridx_main_v5 i j = ix3 (i 0) j (i 2) :=
    funext fun a => Fin.ext (by match a with | ⟨0, _⟩ => rfl | ⟨1, _⟩ => rfl | ⟨2, _⟩ => rfl)
  have eg : ∀ k : Fin 1024, lidx_main_v0 (idx_main_v1 (lidx_main_v5 i j)) k = ix3 (i 0) (i 1) k := fun k =>
    funext fun a => Fin.ext (by match a with | ⟨0, _⟩ => rfl | ⟨1, _⟩ => rfl | ⟨2, _⟩ => rfl)
  have eg' : ∀ k : Fin 1024, ridx_main_v0 (idx_main_v1 (lidx_main_v5 i j)) k = ix3 (i 0) k (Cert.Swiglu.gateCol j) := fun k =>
    funext fun a => Fin.ext (by match a with | ⟨0, _⟩ => rfl | ⟨1, _⟩ => rfl | ⟨2, _⟩ => rfl)
  have ev : ∀ k : Fin 1024, lidx_main_v0 (idx_main_v2 (lidx_main_v5 i j)) k = ix3 (i 0) (i 1) k := fun k =>
    funext fun a => Fin.ext (by match a with | ⟨0, _⟩ => rfl | ⟨1, _⟩ => rfl | ⟨2, _⟩ => rfl)
  have ev' : ∀ k : Fin 1024, ridx_main_v0 (idx_main_v2 (lidx_main_v5 i j)) k = ix3 (i 0) k (Cert.Swiglu.valCol j) := fun k =>
    funext fun a => Fin.ext (by match a with | ⟨0, _⟩ => rfl | ⟨1, _⟩ => rfl | ⟨2, _⟩ => rfl)
  rw [er, val_main_v4_apply, val_main_v3_apply, val_main_call0_v5_apply, val_main_call0_v4_apply, val_main_call0_cst_0_apply,
    val_main_call0_v3_apply, val_main_call0_v2_apply, val_main_call0_cst_apply, val_main_call0_v1_apply, val_main_call0_v0_apply,
    val_main_v1_apply, val_main_v2_apply, val_main_v0_apply, val_main_v0_apply]
  simp only [eg, eg', ev, ev']
  have h1 : FloatOps.ofBits (F := Ideal) .f32 0x3F800000#32 = (1 : EReal) := ofBits_one
  rw [h1]
  rfl

end Cert.ReferenceIdeal.RefValue

end
-- ==== Proof.lean ====
/-
  A gated feed-forward layer over eight experts: the kernel against its reference, on the extended reals.

  Both programs compute, for expert `e`, token row `r` and output feature `o`,
      out[e,r,o] = ∑_{j < 4096} ((g_j · σ(g_j)) · v_j) · w2[e,j,o],
      g_j = ∑_d x[e,r,d] · w1[e,d,j],   v_j = ∑_d x[e,r,d] · w1[e,d,4096 + j],
  with `σ` the logistic function (`Cert.Swiglu.out`, Proof/Spec.lean).

  The reference does it in one piece: a batched product, the two halves sliced apart, the gate sent through
  `g · (1 / (1 + exp (-g)))`, a second batched product (Proof/RefValue.lean).
  The kernel tiles it: per expert and per tile of 512 rows it walks the hidden columns in four chunks of 1024,
  resets an accumulator at the first chunk, adds `gated chunk @ w2 chunk` at every chunk and writes the
  accumulator out at the last (Proof/Pieces.lean, Proof/Payload.lean, Proof/Blocks.lean, Proof/KernelValue.lean).
  The two agree because a sum over 4096 columns is the sum of its four chunks, the quotient is the logistic
  function by definition, and a change of float format is the identity on the extended reals; no step needs
  the inputs to be finite.

  The three frames are the generated ones (the reference's is its generated run with the result dropped),
  and the idealization rewrote nothing, so that conjunct is `True`.
-/
import proofs.«125212_j17111149707607_1_alg».proof.Defs
import proofs.«125212_j17111149707607_1_alg».proof.Proof.Gen.Kernel
import proofs.«125212_j17111149707607_1_alg».proof.Proof.Gen.Kernel.Skeleton
import proofs.«125212_j17111149707607_1_alg».proof.Proof.Gen.Kernel.Launch
import proofs.«125212_j17111149707607_1_alg».proof.Proof.Gen.Kernel.Points
import proofs.«125212_j17111149707607_1_alg».proof.Proof.Gen.Kernel.Frame
import proofs.«125212_j17111149707607_1_alg».proof.Proof.Gen.KernelIdeal
import proofs.«125212_j17111149707607_1_alg».proof.Proof.Gen.KernelIdeal.Skeleton
import proofs.«125212_j17111149707607_1_alg».proof.Proof.Gen.KernelIdeal.Launch
import proofs.«125212_j17111149707607_1_alg».proof.Proof.Gen.KernelIdeal.Points
import proofs.«125212_j17111149707607_1_alg».proof.Proof.Gen.KernelIdeal.Frame
import proofs.«125212_j17111149707607_1_alg».proof.Proof.Gen.ReferenceIdeal
import proofs.«125212_j17111149707607_1_alg».proof.Proof.Gen.KernelIdeal.Value
import proofs.«125212_j17111149707607_1_alg».proof.Proof.Gen.ReferenceIdeal.Run
import proofs.«125212_j17111149707607_1_alg».proof.Proof.Gen.ReferenceIdeal.Read
import proofs.«125212_j17111149707607_1_alg».proof.Proof.Gen.Pre_finite_inputs
import proofs.«125212_j17111149707607_1_alg».proof.Proof.KernelValue
import proofs.«125212_j17111149707607_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the layer's function of them
    in their result arrays. -/
theorem algebraic : Cert.algebraic_KernelIdeal_ReferenceIdeal := by
  intro m ρ m' ρ' _ hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
